-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) (main_arg1 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x1024 : Shape := ⟨2, ![64, 1024]⟩
abbrev S64x1024x1024 : Shape := ⟨3, ![64, 1024, 1024]⟩
abbrev S8x128 : Shape := ⟨2, ![8, 128]⟩
abbrev S8x128x1024 : Shape := ⟨3, ![8, 128, 1024]⟩
abbrev S8x128x1 : Shape := ⟨3, ![8, 128, 1]⟩

abbrev nBuf : Space → Nat
  | .hbm => 8
  | .vmem => 16
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024x1024, .f32⟩
  | .hbm, ⟨5, _⟩ => ⟨S64x1024x1024, .f32⟩
  | .hbm, ⟨6, _⟩ => ⟨S64x1024, .f32⟩
  | .hbm, ⟨7, _⟩ => ⟨S64x1024, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128x1024, .f32⟩
  | .local _ .vmem, ⟨9, _⟩ => ⟨S8x128x1024, .f32⟩
  | .local _ .vmem, ⟨10, _⟩ => ⟨S8x128x1024, .f32⟩
  | .local _ .vmem, ⟨11, _⟩ => ⟨S8x128x1024, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S8x128_S8x128_0_0 : ∀ a, (![0, 0] : Fin 2 → Nat) a + S8x128.size a ≤ S8x128.size a
  h_S8x128 : 0 < S8x128.numel
  natLt_1_32 : 1 < 32
  iota_S8x128x1_d1_w32 : S8x128x1.Iotas .tc 32 [1]
  iota_S8x128x1024_d2_w32 : S8x128x1024.Iotas .tc 32 [2]
  broadcasts_S8x128x1_S8x128x1024 : S8x128x1.Broadcasts S8x128x1024
  shapeCasts_S8x128_S8x128x1 : S8x128.ShapeCasts S8x128x1
  shapeCasts_S8x128x1_S8x128x1 : S8x128x1.ShapeCasts S8x128x1
  inb_S8x128x1024_S8x128x1024_0_0_0 : ∀ a, (![0, 0, 0] : Fin 3 → Nat) a + S8x128x1024.size a ≤ S8x128x1024.size a
  h_S8x128x1024 : 0 < S8x128x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S64x1024.size a
  hwx0_0 : ∀ i : grid0.Coords, EltTy.bits .f32 = 32 ∨ (Rect.block (s := S64x1024) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x1024.size a
  hwx0_1 : ∀ i : grid0.Coords, EltTy.bits .f32 = 32 ∨ (Rect.block (s := S64x1024) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x1024.size a
  hwx0_2 : ∀ i : grid0.Coords, EltTy.bits .f32 = 32 ∨ (Rect.block (s := S64x1024) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x1024.size a
  hwx0_3 : ∀ i : grid0.Coords, EltTy.bits .f32 = 32 ∨ (Rect.block (s := S64x1024) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S64x1024x1024.size a
  hwx0_4 : ∀ i : grid0.Coords, EltTy.bits .f32 = 32 ∨ (Rect.block (s := S64x1024x1024) S8x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x1024.size a ≤ S64x1024x1024.size a
  hwx0_5 : ∀ i : grid0.Coords, EltTy.bits .f32 = 32 ∨ (Rect.block (s := S64x1024x1024) S8x128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x1024.size a
  hwx0_6 : ∀ i : grid0.Coords, EltTy.bits .f32 = 32 ∨ (Rect.block (s := S64x1024) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x1024.size a
  hwx0_7 : ∀ i : grid0.Coords, EltTy.bits .f32 = 32 ∨ (Rect.block (s := S64x1024) S8x128.size (cc0_transform_7 i) (hinb0_7 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S8x128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_5) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024 : Shape := ⟨2, ![64, 1024]⟩
abbrev S_ : Shape := ⟨0, ![]⟩
abbrev S1024x1024 : Shape := ⟨2, ![1024, 1024]⟩
abbrev S64x1024x1 : Shape := ⟨3, ![64, 1024, 1]⟩
abbrev S1x1024x1024 : Shape := ⟨3, ![1, 1024, 1024]⟩
abbrev S64x1024x1024 : Shape := ⟨3, ![64, 1024, 1024]⟩

abbrev nBuf : Space → Nat
  | .hbm => 56
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S_, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .i1⟩
  | .hbm, ⟨11, _⟩ => ⟨S_, .f32⟩
  | .hbm, ⟨12, _⟩ => ⟨S64x1024, .f32⟩
  | .hbm, ⟨13, _⟩ => ⟨S64x1024, .i1⟩
  | .hbm, ⟨14, _⟩ => ⟨S_, .f32⟩
  | .hbm, ⟨15, _⟩ => ⟨S64x1024, .f32⟩
  | .hbm, ⟨16, _⟩ => ⟨S64x1024, .i1⟩
  | .hbm, ⟨17, _⟩ => ⟨S64x1024, .i1⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S_, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | .hbm, ⟨37, _⟩ => ⟨S1024x1024, .i32⟩
  | .hbm, ⟨38, _⟩ => ⟨S1024x1024, .i32⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1024x1024, .f32⟩
  | .hbm, ⟨44, _⟩ => ⟨S64x1024x1, .f32⟩
  | .hbm, ⟨45, _⟩ => ⟨S1x1024x1024, .f32⟩
  | .hbm, ⟨46, _⟩ => ⟨S64x1024x1024, .f32⟩
  | .hbm, ⟨47, _⟩ => ⟨S64x1024x1024, .f32⟩
  | .hbm, ⟨48, _⟩ => ⟨S64x1024x1024, .f32⟩
  | .hbm, ⟨49, _⟩ => ⟨S64x1024x1, .f32⟩
  | .hbm, ⟨50, _⟩ => ⟨S1x1024x1024, .f32⟩
  | .hbm, ⟨51, _⟩ => ⟨S64x1024x1024, .f32⟩
  | .hbm, ⟨52, _⟩ => ⟨S64x1024x1024, .f32⟩
  | .hbm, ⟨53, _⟩ => ⟨S64x1024x1024, .f32⟩
  | .hbm, ⟨54, _⟩ => ⟨S_, .f32⟩
  | .hbm, ⟨55, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S_S1024x1024 : S_.BroadcastsInDim S1024x1024 (![] : Fin 0 → Fin S1024x1024.rank)
  bcast_S64x1024_S64x1024x1_0_1 : S64x1024.BroadcastsInDim S64x1024x1 (![0, 1] : Fin 2 → Fin S64x1024x1.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024x1_S64x1024x1024_0_1_2 : S64x1024x1.BroadcastsInDim S64x1024x1024 (![0, 1, 2] : Fin 3 → Fin S64x1024x1024.rank)

variable [Facts₀]

class Facts : Prop extends Facts₀ where

variable [Facts]
-- ==== Proof.Spec.lean ====
/-
  What the six results are, index by index, as functions of the two argument arrays `l` (lower) and `u` (upper),
  both [64, 1024], over the extended reals.

  Per entry: `relu x = max x 0`; the entry is ACTIVE when `l ≥ 0` and CROSSING when `l < 0 ∧ u > 0`;
  the upper relaxation's slope is `u / ((u − l) + ε)` where crossing and `0` elsewhere, its offset
  `(−slope) · l` where crossing and `0` elsewhere; the lower diagonal entry is the active bit read as a number,
  the upper diagonal entry `1` where active and the slope elsewhere. The two coefficient arrays [64, 1024, 1024]
  carry those diagonal entries on the diagonal of their last two axes: entry `(b, r, c)` is the identity matrix's
  entry `(r, c)` — the bit `r + 0 = c` read as a number — times the diagonal entry at `(b, r)`.
-/
import Idealize.ShloMosaic.PureOps.Ideal
import Idealize.ShloMosaic.Lib.ValueIdx

noncomputable section

namespace Cert.Spec

open Idealize.ShloMosaic Idealize.ShloMosaic.ValueIdx

abbrev zero : Ideal .f32 := FloatOps.ofBits (F := Ideal) .f32 0x00000000#32
abbrev one : Ideal .f32 := FloatOps.ofBits (F := Ideal) .f32 0x3F800000#32
abbrev eps : Ideal .f32 := FloatOps.ofBits (F := Ideal) .f32 0x322BCC77#32

/-- `max x 0`. -/
def relu (x : Ideal .f32) : Ideal .f32 := FloatOps.maximumf x zero

/-- The bit `l ≥ 0`. -/
def active (l : Ideal .f32) : BitVec 1 := FloatOps.cmpf .oge l zero

/-- The bit `l < 0 ∧ u > 0`. -/
def crossing (l u : Ideal .f32) : BitVec 1 := IntOp.andi (FloatOps.cmpf .olt l zero) (FloatOps.cmpf .ogt u zero)

/-- `u / ((u − l) + ε)` where crossing, `0` elsewhere. -/
def slope (l u : Ideal .f32) : Ideal .f32 :=
  Scalar.select (crossing l u) (FloatOps.hostDivf u (FloatOps.addf (FloatOps.subf u l) eps)) zero

/-- `(−slope) · l` where crossing, `0` elsewhere. -/
def offset (l u : Ideal .f32) : Ideal .f32 :=
  Scalar.select (crossing l u) (FloatOps.mulf (FloatOps.hostNegf (slope l u)) l) zero

/-- The active bit as a number. -/
def lowerDiag (l : Ideal .f32) : Ideal .f32 := FloatOps.uitofp (F := Ideal) .f32 (active l)

/-- `1` where active, the slope elsewhere. -/
def upperDiag (l u : Ideal .f32) : Ideal .f32 := Scalar.select (active l) one (slope l u)

/-- The identity matrix's bit at row `r`, column `c`, as 32-bit words: `r + 0 = c`. -/
def onDiag (r c : ℕ) : BitVec 1 := IntOp.cmpi .eq (IntOp.addi (BitVec.ofNat 32 r) 0#32) (BitVec.ofNat 32 c)

abbrev Mat : Type := (⟨2, ![64, 1024]⟩ : Shape).Idx → Ideal .f32
abbrev Cube : Type := (⟨3, ![64, 1024, 1024]⟩ : Shape).Idx → Ideal .f32

/-- `max l 0`, entry by entry. -/
def concreteLower (l : Mat) : Mat := fun i => relu (l i)

/-- `max u 0`, entry by entry. -/
def concreteUpper (u : Mat) : Mat := fun i => relu (u i)

/-- Entry `(b, r, c)`: the identity's `(r, c)` times the lower diagonal entry at `(b, r)`. -/
def lowerCoef (l : Mat) : Cube := fun i =>
  FloatOps.mulf (FloatOps.uitofp (F := Ideal) .f32 (onDiag (i 1).val (i 2).val))
    (lowerDiag (l (ix2 (n0 := 64) (n1 := 1024) (i 0) (i 1))))

/-- Entry `(b, r, c)`: the identity's `(r, c)` times the upper diagonal entry at `(b, r)`. -/
def upperCoef (l u : Mat) : Cube := fun i =>
  FloatOps.mulf (FloatOps.uitofp (F := Ideal) .f32 (onDiag (i 1).val (i 2).val))
    (upperDiag (l (ix2 (n0 := 64) (n1 := 1024) (i 0) (i 1))) (u (ix2 (n0 := 64) (n1 := 1024) (i 0) (i 1))))

/-- Zero everywhere. -/
def lowerBias : Mat := fun _ => zero

/-- The offset, entry by entry. -/
def upperBias (l u : Mat) : Mat := fun i => offset (l i) (u i)

end Cert.Spec

end
-- ==== Proof.DiagonalLaws.lean ====
/-
  Two laws on which the kernel and the reference meet on the diagonal coefficient arrays.

  * A one-bit word `b` selects between an extended real `d` and zero exactly as its unsigned value multiplies `d`:
    for `b = 1` both sides are `d` (`1 · d = d`), for `b = 0` both are `0` (`0 · d = 0`), and both identities hold for
    EVERY extended real, the infinities included, so no finiteness of `d` is asked.
  * Row `r` of the block at block-row `q` is row `q · 128 + r` of the array: on 32-bit words
    `r + q · 128 = (q · 128 + r) + 0`, so the kernel's test "column = local row + block-row · 128" is the reference's
    test "(row + 0) = column" at that array row. The equality of words is symmetric.
-/
import Idealize.ShloMosaic.PureOps.Ideal
import Idealize.ShloMosaic.PureOps.Ideal.Laws

noncomputable section

namespace Cert.DiagonalLaws

open Idealize.ShloMosaic

/-- A one-bit word is `0` or `1`. -/
theorem bit_cases : ∀ b : BitVec 1, b = 0#1 ∨ b = 1#1 := by decide

/-- Selecting `d` or zero by a bit is multiplying `d` by the bit read as a number: `1 · d = d`, `0 · d = 0` on the
    extended reals. -/
theorem select_zero_eq_uitofp_mul (b : BitVec 1) (d : Ideal .f32) :
    Scalar.select b d (FloatOps.ofBits (F := Ideal) .f32 0x00000000#32)
      = FloatOps.mulf (FloatOps.uitofp (F := Ideal) .f32 b) d := by
  show (if b = 1 then (d : EReal) else Ideal.ofBits .f32 0x00000000#32) = (((b.toNat : ℝ) : EReal)) * (d : EReal)
  rcases bit_cases b with rfl | rfl
  · rw [if_neg (by decide), Ideal.ofBits_zero_f32]
    show (0 : EReal) = (((0 : ℕ) : ℝ) : EReal) * d
    rw [Nat.cast_zero, EReal.coe_zero, zero_mul]
  · rw [if_pos (by decide)]
    show (d : EReal) = (((1 : ℕ) : ℝ) : EReal) * d
    rw [Nat.cast_one, EReal.coe_one, one_mul]

/-- Local row `r` of block-row `q` as a 32-bit word is array row `q · 128 + r` (plus the reference's zero). -/
theorem row_word (q r : ℕ) :
    BitVec.ofNat 32 r + BitVec.ofNat 32 q * 128#32 = BitVec.ofNat 32 (q * 128 + r) + 0#32 := by
  rw [BitVec.add_zero, BitVec.ofNat_add, BitVec.ofNat_mul, BitVec.add_comm]

/-- The kernel's diagonal test at local row `r` of block-row `q` and column `c` is the reference's at array row
    `q · 128 + r` and column `c`. -/
theorem diag_test (q r c : ℕ) :
    IntOp.cmpi .eq (BitVec.ofNat 32 c) (IntOp.addi (BitVec.ofNat 32 r) (IntOp.muli (BitVec.ofNat 32 q) 128#32))
      = IntOp.cmpi .eq (IntOp.addi (BitVec.ofNat 32 (q * 128 + r)) 0#32) (BitVec.ofNat 32 c) := by
  show BitVec.ofBool (BitVec.ofNat 32 c == BitVec.ofNat 32 r + BitVec.ofNat 32 q * 128#32)
     = BitVec.ofBool (BitVec.ofNat 32 (q * 128 + r) + 0#32 == BitVec.ofNat 32 c)
  rw [row_word, Bool.beq_comm]

end Cert.DiagonalLaws

end
-- ==== Proof.KernelPayloads.lean ====
/-
  The kernel body's stored values, read at an entry of a block, over the extended reals.

  The four [8, 128] stores are pointwise in the two loaded blocks `x0` (of `l`) and `x1` (of `u`): at an entry they are
  the specification's scalar functions of the blocks' entries. Two spellings differ from the specification's and are
  the same number: the kernel negates the slope as `0 − slope`, which is `−slope` on every extended real; and it turns
  the active bit into a number by widening it to a 32-bit word and reading that word signed, which for a bit is its
  unsigned value.

  The two [8, 128, 1024] stores place a per-row value on a diagonal: entry `(b, r, c)` of the block at block-row `q`
  is the row value at `(b, r)` where `c = r + q · 128` (words) and `0` elsewhere. The shape cast [8,128] → [8,128,1]
  followed by the broadcast along the last axis reads `(b, r)` at `(b, r, c)`. The test is the identity matrix's bit
  at array row `q · 128 + r` and column `c`, and selecting by a bit between a value and `0` is multiplying the value
  by the bit (DiagonalLaws.lean).
-/
import proofs.«141274_j59949153518085_1_alg».proof.Proof.Gen.KernelIdeal.Skeleton
import proofs.«141274_j59949153518085_1_alg».proof.Proof.Spec
import proofs.«141274_j59949153518085_1_alg».proof.Proof.DiagonalLaws
import Idealize.ShloMosaic.Lib.ValueIdx
import Idealize.ShloMosaic.Lib.Pipeline.Value
import Idealize.ShloMosaic.Lib.KernelVsHost

noncomputable section

namespace Cert.KernelIdeal.Payloads

open Cert.KernelIdeal Cert.KernelIdeal.Gen Idealize.ShloMosaic Idealize.ShloMosaic.ValueIdx

/-! ## The pointwise stores -/

/-- `max l 0` at an entry. -/
theorem concreteLower_apply (x0 : Vec Ideal S8x128 .f32) (j : S8x128.Idx) :
    k0_pay4 x0 j = Cert.Spec.relu (x0 j) := rfl

/-- `max u 0` at an entry. -/
theorem concreteUpper_apply (x1 : Vec Ideal S8x128 .f32) (j : S8x128.Idx) :
    k0_pay5 x1 j = Cert.Spec.relu (x1 j) := rfl

/-- The zero block. -/
theorem lowerBias_apply (j : S8x128.Idx) : k0_pay12 (F := Ideal) j = Cert.Spec.zero := rfl

/-- The slope at an entry (the kernel's quotient and the host's are one function on the extended reals). -/
theorem slope_apply (x0 x1 : Vec Ideal S8x128 .f32) (j : S8x128.Idx) :
    k0_pay8 x0 x1 j = Cert.Spec.slope (x0 j) (x1 j) := rfl

/-- The offset at an entry: `0 − slope` is `−slope`. -/
theorem upperBias_apply (x0 x1 : Vec Ideal S8x128 .f32) (j : S8x128.Idx) :
    k0_pay9 x0 x1 j = Cert.Spec.offset (x0 j) (x1 j) := by
  show Scalar.select (Cert.Spec.crossing (x0 j) (x1 j))
      (FloatOps.mulf (FloatOps.subf (FloatOps.ofBits (F := Ideal) .f32 0x00000000#32) (Cert.Spec.slope (x0 j) (x1 j))) (x0 j))
      Cert.Spec.zero = _
  rw [Ideal.subf_zero_eq_hostNegf]
  rfl

/-- The lower diagonal entry: the active bit widened and read signed is the bit read unsigned. -/
theorem lowerDiag_apply (x0 : Vec Ideal S8x128 .f32) (j : S8x128.Idx) :
    k0_pay10 x0 j = Cert.Spec.lowerDiag (x0 j) :=
  congrFun (sitofp_extui_eq_uitofp (φ := .f32) (k0_pay6 (F := Ideal) x0) Facts₀.natLt_1_32) j

/-- The upper diagonal entry. -/
theorem upperDiag_apply (x0 x1 : Vec Ideal S8x128 .f32) (j : S8x128.Idx) :
    k0_pay11 x0 x1 j = Cert.Spec.upperDiag (x0 j) (x1 j) := rfl

/-! ## The diagonal stores -/

/-- The diagonal test at `(b, r, c)` of the block at block-row word `arg1`: `c = r + arg1 · 128` on 32-bit words. -/
theorem mask_apply (arg1 : BitVec 32) (b : Fin 8) (r : Fin 128) (c : Fin 1024) :
    k0_pay1 arg1 (ix3 b r c)
      = IntOp.cmpi .eq (BitVec.ofNat 32 c.val) (IntOp.addi (BitVec.ofNat 32 r.val) (IntOp.muli arg1 128#32)) := by
  refine congrArg₂ (IntOp.cmpi .eq) (iota_single_apply .tc S8x128x1024 32 2 _ (ix3 b r c)) ?_
  refine (broadcastTo_apply _ _ (ix3 b r c) (ix3 b r (0 : Fin 1))
    (fun a => match a with | ⟨0, _⟩ => rfl | ⟨1, _⟩ => rfl | ⟨2, _⟩ => rfl)).trans ?_
  exact congrArg₂ IntOp.addi (iota_single_apply .tc S8x128x1 32 1 _ (ix3 b r (0 : Fin 1))) rfl

/-- A per-row value cast to a column and broadcast along the last axis reads `(b, r)` at `(b, r, c)`. -/
theorem row_bcast_apply (v : FVec Ideal S8x128 .f32) (b : Fin 8) (r : Fin 128) (c : Fin 1024) :
    broadcastTo S8x128x1024
        (shapeCast S8x128x1 (shapeCast S8x128x1 v Facts₀.shapeCasts_S8x128_S8x128x1) Facts₀.shapeCasts_S8x128x1_S8x128x1)
        Facts₀.broadcasts_S8x128x1_S8x128x1024 (ix3 b r c)
      = v (ix2 b r) := by
  refine (broadcastTo_apply _ _ (ix3 b r c) (ix3 b r (0 : Fin 1))
    (fun a => match a with | ⟨0, _⟩ => rfl | ⟨1, _⟩ => rfl | ⟨2, _⟩ => rfl)).trans ?_
  rw [shapeCast_self]
  refine shapeCast_apply _ _ (ix3 b r (0 : Fin 1)) (ix2 b r) ?_
  rw [Shape.rowMajor_val_two, Shape.rowMajor_val_three]
  show b.val * 128 + r.val = (b.val * 128 + r.val) * 1 + 0
  omega

/-- A diagonal store at `(b, r, c)` of the block at block-row `q`: the identity's bit at array row `q · 128 + r`,
    column `c`, times the row value at `(b, r)`. -/
theorem diag_store_apply (q : ℕ) (v : FVec Ideal S8x128 .f32) (b : Fin 8) (r : Fin 128) (c : Fin 1024) :
    Scalar.select (k0_pay1 (BitVec.ofNat 32 q) (ix3 b r c))
        (broadcastTo S8x128x1024
          (shapeCast S8x128x1 (shapeCast S8x128x1 v Facts₀.shapeCasts_S8x128_S8x128x1) Facts₀.shapeCasts_S8x128x1_S8x128x1)
          Facts₀.broadcasts_S8x128x1_S8x128x1024 (ix3 b r c))
        (FloatOps.ofBits (F := Ideal) .f32 0x00000000#32)
      = FloatOps.mulf (FloatOps.uitofp (F := Ideal) .f32 (Cert.Spec.onDiag (q * 128 + r.val) c.val)) (v (ix2 b r)) := by
  rw [mask_apply, row_bcast_apply, Cert.DiagonalLaws.diag_test, Cert.DiagonalLaws.select_zero_eq_uitofp_mul]
  rfl

/-- The lower coefficient block at block-row `q`, at `(b, r, c)`. -/
theorem lowerCoef_apply (q : ℕ) (x0 : Vec Ideal S8x128 .f32) (b : Fin 8) (r : Fin 128) (c : Fin 1024) :
    k0_pay2 (BitVec.ofNat 32 q) (k0_pay10 x0) (ix3 b r c)
      = FloatOps.mulf (FloatOps.uitofp (F := Ideal) .f32 (Cert.Spec.onDiag (q * 128 + r.val) c.val))
          (Cert.Spec.lowerDiag (x0 (ix2 b r))) :=
  (diag_store_apply q (k0_pay10 x0) b r c).trans
    (congrArg (FloatOps.mulf (FloatOps.uitofp (F := Ideal) .f32 (Cert.Spec.onDiag (q * 128 + r.val) c.val)))
      (lowerDiag_apply x0 (ix2 b r)))

/-- The upper coefficient block at block-row `q`, at `(b, r, c)`. -/
theorem upperCoef_apply (q : ℕ) (x0 x1 : Vec Ideal S8x128 .f32) (b : Fin 8) (r : Fin 128) (c : Fin 1024) :
    k0_pay3 (BitVec.ofNat 32 q) (k0_pay11 x0 x1) (ix3 b r c)
      = FloatOps.mulf (FloatOps.uitofp (F := Ideal) .f32 (Cert.Spec.onDiag (q * 128 + r.val) c.val))
          (Cert.Spec.upperDiag (x0 (ix2 b r)) (x1 (ix2 b r))) :=
  (diag_store_apply q (k0_pay11 x0 x1) b r c).trans
    (congrArg (FloatOps.mulf (FloatOps.uitofp (F := Ideal) .f32 (Cert.Spec.onDiag (q * 128 + r.val) c.val)))
      (upperDiag_apply x0 x1 (ix2 b r)))

/-- The lower coefficient block at block-row `q`, at a block index `y`. -/
theorem lowerCoef_block (q : ℕ) (x0 : Vec Ideal S8x128 .f32) (y : S8x128x1024.Idx) :
    k0_pay2 (BitVec.ofNat 32 q) (k0_pay10 x0) y
      = FloatOps.mulf (FloatOps.uitofp (F := Ideal) .f32 (Cert.Spec.onDiag (q * 128 + (y 1).val) (y 2).val))
          (Cert.Spec.lowerDiag (x0 (ix2 (n0 := 8) (n1 := 128) (y 0) (y 1)))) := by
  obtain ⟨b, r, c, rfl⟩ : ∃ (b : Fin 8) (r : Fin 128) (c : Fin 1024), y = ix3 b r c := ⟨y 0, y 1, y 2, eq_ix3 y⟩
  exact lowerCoef_apply q x0 b r c

/-- The upper coefficient block at block-row `q`, at a block index `y`. -/
theorem upperCoef_block (q : ℕ) (x0 x1 : Vec Ideal S8x128 .f32) (y : S8x128x1024.Idx) :
    k0_pay3 (BitVec.ofNat 32 q) (k0_pay11 x0 x1) y
      = FloatOps.mulf (FloatOps.uitofp (F := Ideal) .f32 (Cert.Spec.onDiag (q * 128 + (y 1).val) (y 2).val))
          (Cert.Spec.upperDiag (x0 (ix2 (n0 := 8) (n1 := 128) (y 0) (y 1))) (x1 (ix2 (n0 := 8) (n1 := 128) (y 0) (y 1)))) := by
  obtain ⟨b, r, c, rfl⟩ : ∃ (b : Fin 8) (r : Fin 128) (c : Fin 1024), y = ix3 b r c := ⟨y 0, y 1, y 2, eq_ix3 y⟩
  exact upperCoef_apply q x0 x1 b r c

end Cert.KernelIdeal.Payloads

end
-- ==== Proof.KernelBlocks.lean ====
/-
  From blocks to arrays: after the kernel's run each of its six result arrays IS the specification's function of the
  argument arrays (Spec.lean).

  The grid is 8 × 8; at point `(p, q)` every window's block index is `(p, q)` (the two coefficient windows': `(p, q, 0)`),
  so an [8, 128] block covers rows `8p … 8p + 7` and columns `128q … 128q + 127` of its [64, 1024] array, and an
  [8, 128, 1024] block those rows and columns and the whole last axis of its [64, 1024, 1024] array: the 64 blocks tile
  each array. An index inside a block is array index (block index × block size + the index inside) on each axis, the
  same for an input window and an output window, so what a point stores, read through its output block, is the
  specification's function read through that block. For the coefficient arrays the block's row `r` at block-row `q`
  is array row `128q + r`, which is where the kernel's diagonal test puts it (KernelPayloads.lean).
-/
import proofs.«141274_j59949153518085_1_alg».proof.Proof.KernelIdealValue
import proofs.«141274_j59949153518085_1_alg».proof.Proof.KernelPayloads

noncomputable section

namespace Cert.KernelIdeal.Blocks

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block index at a grid point is the point's coordinates (decided over the 64 points). -/
theorem idx_facts : ∀ t : Fin cfg0.N,
    win0_0.index t (0 : Fin 2) = (grid0.coords t 0).val
    ∧ win0_0.index t (1 : Fin 2) = (grid0.coords t 1).val
    ∧ win0_1.index t (0 : Fin 2) = (grid0.coords t 0).val
    ∧ win0_1.index t (1 : Fin 2) = (grid0.coords t 1).val
    ∧ win0_2.index t (0 : Fin 2) = (grid0.coords t 0).val
    ∧ win0_2.index t (1 : Fin 2) = (grid0.coords t 1).val
    ∧ win0_3.index t (0 : Fin 2) = (grid0.coords t 0).val
    ∧ win0_3.index t (1 : Fin 2) = (grid0.coords t 1).val
    ∧ win0_6.index t (0 : Fin 2) = (grid0.coords t 0).val
    ∧ win0_6.index t (1 : Fin 2) = (grid0.coords t 1).val
    ∧ win0_7.index t (0 : Fin 2) = (grid0.coords t 0).val
    ∧ win0_7.index t (1 : Fin 2) = (grid0.coords t 1).val
    ∧ win0_4.index t (0 : Fin 3) = (grid0.coords t 0).val
    ∧ win0_4.index t (1 : Fin 3) = (grid0.coords t 1).val
    ∧ win0_4.index t (2 : Fin 3) = 0
    ∧ win0_5.index t (0 : Fin 3) = (grid0.coords t 0).val
    ∧ win0_5.index t (1 : Fin 3) = (grid0.coords t 1).val
    ∧ win0_5.index t (2 : Fin 3) = 0 :=
  (by decide +kernel : ∀ t : Fin grid0.N, _)

/-- Every pair of block coordinates is some grid point's. -/
theorem coords_onto : ∀ (p : Fin 8) (q : Fin 8), ∃ t : Fin cfg0.N, (grid0.coords t 0).val = p.val ∧ (grid0.coords t 1).val = q.val :=
  (by decide +kernel : ∀ (p : Fin 8) (q : Fin 8), ∃ t : Fin grid0.N, (grid0.coords t 0).val = p.val ∧ (grid0.coords t 1).val = q.val)

/-! ## Result window 2: concreteLower -/

/-- What point `t` writes back is block `t` of the specification's array. -/
theorem flushed2_eq (c : Dev nD) (t : Fin cfg0.N) :
    (dats m 0 c).flushed 2 t = ((cfg0.win 2).blk t).view.read (Elt Ideal) (Cert.Spec.concreteLower (V m c main_arg0)) := by
  rw [flushed2]
  unfold out0_2
  rw [View.canon_unit_zero hz2]
  simp only [View.ld_unit_zero (S := S8x128) hz2]
  obtain ⟨e0, e1, e2, e3, e4, e5, e6, e7, e8, e9, e10, e11, e12, e13, e14, e15, e16, e17⟩ := idx_facts t
  funext j
  show Cert.Spec.relu (V m c main_arg0 (((cfg0.win 0).blk t).view.emb j)) = Cert.Spec.relu (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8 + 1 * (j 0).val = win0_2.index t (0 : Fin 2) * 8 + 1 * (j 0).val; omega
    | ⟨1, _⟩ => show win0_0.index t (1 : Fin 2) * 128 + 1 * (j 1).val = win0_2.index t (1 : Fin 2) * 128 + 1 * (j 1).val; omega
  rw [h0]

/-- An index of the array is in point `t`'s block iff each coordinate is in the block's range on its axis. -/
theorem mem_blk2 (t : Fin cfg0.N) (i : S64x1024.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_0).slice (win0_2.rect t)).set ↔ _
  rw [View.set_slice_whole, Rect.mem_set_unit]
  exact Iff.rfl

/-- The blocks tile the array: index `(x, y)` is in the block of point `(x / 8, y / 128)`. -/
theorem cover2 (i : S64x1024.Idx) : ∃ t : Fin cfg0.N, (cfg0.win 2).flush t = true ∧ i ∈ ((cfg0.win 2).blk t).view.set := by
  have hi0 : (i 0).val < 64 := (i 0).isLt
  have hi1 : (i 1).val < 1024 := (i 1).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_2 t, ?_⟩
  rw [mem_blk2]
  intro a
  have ht0' : (grid0.coords t 0).val = (i 0).val / 8 := ht0
  have ht1' : (grid0.coords t 1).val = (i 1).val / 128 := ht1
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The array after the run. -/
theorem final2 (c : Dev nD) : (dats m 0 c).arrAt 2 cfg0.N = Cert.Spec.concreteLower (V m c main_arg0) :=
  (dats m 0 c).arrAt_eq_of_cover 2 (Cert.Spec.concreteLower (V m c main_arg0)) (fun t _ => flushed2_eq m c t) cover2

/-! ## Result window 3: concreteUpper -/

/-- What point `t` writes back is block `t` of the specification's array. -/
theorem flushed3_eq (c : Dev nD) (t : Fin cfg0.N) :
    (dats m 0 c).flushed 3 t = ((cfg0.win 3).blk t).view.read (Elt Ideal) (Cert.Spec.concreteUpper (V m c main_arg1)) := by
  rw [flushed3]
  unfold out0_3
  rw [View.canon_unit_zero hz2]
  simp only [View.ld_unit_zero (S := S8x128) hz2]
  obtain ⟨e0, e1, e2, e3, e4, e5, e6, e7, e8, e9, e10, e11, e12, e13, e14, e15, e16, e17⟩ := idx_facts t
  funext j
  show Cert.Spec.relu (V m c main_arg1 (((cfg0.win 1).blk t).view.emb j)) = Cert.Spec.relu (V m c main_arg1 (((cfg0.win 3).blk t).view.emb j))
  have h1 : ((cfg0.win 1).blk t).view.emb j = ((cfg0.win 3).blk t).view.emb j := by
    funext a; apply Fin.ext
    match a with
    | ⟨0, _⟩ => show win0_1.index t (0 : Fin 2) * 8 + 1 * (j 0).val = win0_3.index t (0 : Fin 2) * 8 + 1 * (j 0).val; omega
    | ⟨1, _⟩ => show win0_1.index t (1 : Fin 2) * 128 + 1 * (j 1).val = win0_3.index t (1 : Fin 2) * 128 + 1 * (j 1).val; omega
  rw [h1]

/-- An index of the array is in point `t`'s block iff each coordinate is in the block's range on its axis. -/
theorem mem_blk3 (t : Fin cfg0.N) (i : S64x1024.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_1).slice (win0_3.rect t)).set ↔ _
  rw [View.set_slice_whole, Rect.mem_set_unit]
  exact Iff.rfl

/-- The blocks tile the array: index `(x, y)` is in the block of point `(x / 8, y / 128)`. -/
theorem cover3 (i : S64x1024.Idx) : ∃ t : Fin cfg0.N, (cfg0.win 3).flush t = true ∧ i ∈ ((cfg0.win 3).blk t).view.set := by
  have hi0 : (i 0).val < 64 := (i 0).isLt
  have hi1 : (i 1).val < 1024 := (i 1).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_3 t, ?_⟩
  rw [mem_blk3]
  intro a
  have ht0' : (grid0.coords t 0).val = (i 0).val / 8 := ht0
  have ht1' : (grid0.coords t 1).val = (i 1).val / 128 := ht1
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- The array after the run. -/
theorem final3 (c : Dev nD) : (dats m 0 c).arrAt 3 cfg0.N = Cert.Spec.concreteUpper (V m c main_arg1) :=
  (dats m 0 c).arrAt_eq_of_cover 3 (Cert.Spec.concreteUpper (V m c main_arg1)) (fun t _ => flushed3_eq m c t) cover3

/-! ## Result window 6: lowerBias -/

/-- What point `t` writes back is block `t` of the specification's array. -/
theorem flushed6_eq (c : Dev nD) (t : Fin cfg0.N) :
    (dats m 0 c).flushed 6 t = ((cfg0.win 6).blk t).view.read (Elt Ideal) (Cert.Spec.lowerBias) := by
  rw [flushed6]
  unfold out0_6
  rw [View.canon_unit_zero hz2]
  obtain ⟨e0, e1, e2, e3, e4, e5, e6, e7, e8, e9, e10, e11, e12, e13, e14, e15, e16, e17⟩ := idx_facts t
  funext j
  show Cert.Spec.zero = Cert.Spec.zero
  rfl

/-- An index of the array is in point `t`'s block iff each coordinate is in the block's range on its axis. -/
theorem mem_blk6 (t : Fin cfg0.N) (i : S64x1024.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v0_4).slice (win0_6.rect t)).set ↔ _
  rw [View.set_slice_whole, Rect.mem_set_unit]
  exact Iff.rfl

/-- The blocks tile the array: index `(x, y)` is in the block of point `(x / 8, y / 128)`. -/
theorem cover6 (i : S64x1024.Idx) : ∃ t : Fin cfg0.N, (cfg0.win 6).flush t = true ∧ i ∈ ((cfg0.win 6).blk t).view.set := by
  have hi0 : (i 0).val < 64 := (i 0).isLt
  have hi1 : (i 1).val < 1024 := (i 1).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_6 t, ?_⟩
  rw [mem_blk6]
  intro a
  have ht0' : (grid0.coords t 0).val = (i 0).val / 8 := ht0
  have ht1' : (grid0.coords t 1).val = (i 1).val / 128 := ht1
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-- The array after the run. -/
theorem final6 (c : Dev nD) : (dats m 0 c).arrAt 6 cfg0.N = Cert.Spec.lowerBias :=
  (dats m 0 c).arrAt_eq_of_cover 6 (Cert.Spec.lowerBias) (fun t _ => flushed6_eq m c t) cover6

/-! ## Result window 7: upperBias -/

/-- What point `t` writes back is block `t` of the specification's array. -/
theorem flushed7_eq (c : Dev nD) (t : Fin cfg0.N) :
    (dats m 0 c).flushed 7 t = ((cfg0.win 7).blk t).view.read (Elt Ideal) (Cert.Spec.upperBias (V m c main_arg0) (V m c main_arg1)) := by
  rw [flushed7]
  unfold out0_7
  rw [View.canon_unit_zero hz2]
  simp only [View.ld_unit_zero (S := S8x128) hz2]
  obtain ⟨e0, e1, e2, e3, e4, e5, e6, e7, e8, e9, e10, e11, e12, e13, e14, e15, e16, e17⟩ := idx_facts t
  funext j
  refine (Payloads.upperBias_apply (iblk m c 0 t) (iblk m c 1 t) j).trans ?_
  show Cert.Spec.offset (V m c main_arg0 (((cfg0.win 0).blk t).view.emb j)) (V m c main_arg1 (((cfg0.win 1).blk t).view.emb j)) = Cert.Spec.offset (V m c main_arg0 (((cfg0.win 7).blk t).view.emb j)) (V m c main_arg1 (((cfg0.win 7).blk t).view.emb j))
  have h0 : ((cfg0.win 0).blk t).view.emb j = ((cfg0.win 7).blk t).view.emb j := by
    funext a; apply Fin.ext
    match a with
    | ⟨0, _⟩ => show win0_0.index t (0 : Fin 2) * 8 + 1 * (j 0).val = win0_7.index t (0 : Fin 2) * 8 + 1 * (j 0).val; omega
    | ⟨1, _⟩ => show win0_0.index t (1 : Fin 2) * 128 + 1 * (j 1).val = win0_7.index t (1 : Fin 2) * 128 + 1 * (j 1).val; omega
  have h1 : ((cfg0.win 1).blk t).view.emb j = ((cfg0.win 7).blk t).view.emb j := by
    funext a; apply Fin.ext
    match a with
    | ⟨0, _⟩ => show win0_1.index t (0 : Fin 2) * 8 + 1 * (j 0).val = win0_7.index t (0 : Fin 2) * 8 + 1 * (j 0).val; omega
    | ⟨1, _⟩ => show win0_1.index t (1 : Fin 2) * 128 + 1 * (j 1).val = win0_7.index t (1 : Fin 2) * 128 + 1 * (j 1).val; omega
  rw [h0, h1]

/-- An index of the array is in point `t`'s block iff each coordinate is in the block's range on its axis. -/
theorem mem_blk7 (t : Fin cfg0.N) (i : S64x1024.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v0_5).slice (win0_7.rect t)).set ↔ _
  rw [View.set_slice_whole, Rect.mem_set_unit]
  exact Iff.rfl

/-- The blocks tile the array: index `(x, y)` is in the block of point `(x / 8, y / 128)`. -/
theorem cover7 (i : S64x1024.Idx) : ∃ t : Fin cfg0.N, (cfg0.win 7).flush t = true ∧ i ∈ ((cfg0.win 7).blk t).view.set := by
  have hi0 : (i 0).val < 64 := (i 0).isLt
  have hi1 : (i 1).val < 1024 := (i 1).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_7 t, ?_⟩
  rw [mem_blk7]
  intro a
  have ht0' : (grid0.coords t 0).val = (i 0).val / 8 := ht0
  have ht1' : (grid0.coords t 1).val = (i 1).val / 128 := ht1
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

/-- The array after the run. -/
theorem final7 (c : Dev nD) : (dats m 0 c).arrAt 7 cfg0.N = Cert.Spec.upperBias (V m c main_arg0) (V m c main_arg1) :=
  (dats m 0 c).arrAt_eq_of_cover 7 (Cert.Spec.upperBias (V m c main_arg0) (V m c main_arg1)) (fun t _ => flushed7_eq m c t) cover7

/-! ## Result window 4: lowerCoef -/

/-- What point `t` writes back is block `t` of the specification's array. -/
theorem flushed4_eq (c : Dev nD) (t : Fin cfg0.N) :
    (dats m 0 c).flushed 4 t = ((cfg0.win 4).blk t).view.read (Elt Ideal) (Cert.Spec.lowerCoef (V m c main_arg0)) := by
  rw [flushed4]
  unfold out0_4
  rw [View.canon_unit_zero hz3]
  simp only [View.ld_unit_zero (S := S8x128) hz2]
  obtain ⟨e0, e1, e2, e3, e4, e5, e6, e7, e8, e9, e10, e11, e12, e13, e14, e15, e16, e17⟩ := idx_facts t
  funext j
  refine (Payloads.lowerCoef_block _ (iblk m c 0 t) j).trans ?_
  show FloatOps.mulf (FloatOps.uitofp (F := Ideal) .f32 (Cert.Spec.onDiag ((grid0.coords t 1).val * 128 + (j 1).val) (j 2).val)) (Cert.Spec.lowerDiag (V m c main_arg0 (((cfg0.win 0).blk t).view.emb (ix2 (n0 := 8) (n1 := 128) (j 0) (j 1)))))
     = FloatOps.mulf (FloatOps.uitofp (F := Ideal) .f32 (Cert.Spec.onDiag ((((cfg0.win 4).blk t).view.emb j) 1).val ((((cfg0.win 4).blk t).view.emb j) 2).val)) (Cert.Spec.lowerDiag (V m c main_arg0 (ix2 (n0 := 64) (n1 := 1024) ((((cfg0.win 4).blk t).view.emb j) 0) ((((cfg0.win 4).blk t).view.emb j) 1))))
  have r1 : ((((cfg0.win 4).blk t).view.emb j) 1).val = (grid0.coords t 1).val * 128 + (j 1).val := by
    show win0_4.index t (1 : Fin 3) * 128 + 1 * (j 1).val = _; omega
  have r2 : ((((cfg0.win 4).blk t).view.emb j) 2).val = (j 2).val := by
    show win0_4.index t (2 : Fin 3) * 1024 + 1 * (j 2).val = _; omega
  have h0 : ((cfg0.win 0).blk t).view.emb (ix2 (n0 := 8) (n1 := 128) (j 0) (j 1)) = ix2 (n0 := 64) (n1 := 1024) ((((cfg0.win 4).blk t).view.emb j) 0) ((((cfg0.win 4).blk t).view.emb j) 1) := by
    funext a; apply Fin.ext
    match a with
    | ⟨0, _⟩ => show win0_0.index t (0 : Fin 2) * 8 + 1 * (j 0).val = win0_4.index t (0 : Fin 3) * 8 + 1 * (j 0).val; omega
    | ⟨1, _⟩ => show win0_0.index t (1 : Fin 2) * 128 + 1 * (j 1).val = win0_4.index t (1 : Fin 3) * 128 + 1 * (j 1).val; omega
  rw [r1, r2, h0]

/-- An index of the array is in point `t`'s block iff each coordinate is in the block's range on its axis. -/
theorem mem_blk4 (t : Fin cfg0.N) (i : S64x1024x1024.Idx) :
    i ∈ ((cfg0.win 4).blk t).view.set ↔ ∀ a : Fin 3, win0_4.index t a * S8x128x1024.size a ≤ (i a).val ∧ (i a).val < win0_4.index t a * S8x128x1024.size a + S8x128x1024.size a := by
  show i ∈ ((View.whole main_v0_2).slice (win0_4.rect t)).set ↔ _
  rw [View.set_slice_whole, Rect.mem_set_unit]
  exact Iff.rfl

/-- The blocks tile the array: index `(x, y, z)` is in the block of point `(x / 8, y / 128)`. -/
theorem cover4 (i : S64x1024x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_4 t, ?_⟩
  rw [mem_blk4]
  intro a
  have ht0' : (grid0.coords t 0).val = (i 0).val / 8 := ht0
  have ht1' : (grid0.coords t 1).val = (i 1).val / 128 := ht1
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- The array after the run. -/
theorem final4 (c : Dev nD) : (dats m 0 c).arrAt 4 cfg0.N = Cert.Spec.lowerCoef (V m c main_arg0) :=
  (dats m 0 c).arrAt_eq_of_cover 4 (Cert.Spec.lowerCoef (V m c main_arg0)) (fun t _ => flushed4_eq m c t) cover4

/-! ## Result window 5: upperCoef -/

/-- What point `t` writes back is block `t` of the specification's array. -/
theorem flushed5_eq (c : Dev nD) (t : Fin cfg0.N) :
    (dats m 0 c).flushed 5 t = ((cfg0.win 5).blk t).view.read (Elt Ideal) (Cert.Spec.upperCoef (V m c main_arg0) (V m c main_arg1)) := by
  rw [flushed5]
  unfold out0_5
  rw [View.canon_unit_zero hz3]
  simp only [View.ld_unit_zero (S := S8x128) hz2]
  obtain ⟨e0, e1, e2, e3, e4, e5, e6, e7, e8, e9, e10, e11, e12, e13, e14, e15, e16, e17⟩ := idx_facts t
  funext j
  refine (Payloads.upperCoef_block _ (iblk m c 0 t) (iblk m c 1 t) j).trans ?_
  show FloatOps.mulf (FloatOps.uitofp (F := Ideal) .f32 (Cert.Spec.onDiag ((grid0.coords t 1).val * 128 + (j 1).val) (j 2).val)) (Cert.Spec.upperDiag (V m c main_arg0 (((cfg0.win 0).blk t).view.emb (ix2 (n0 := 8) (n1 := 128) (j 0) (j 1)))) (V m c main_arg1 (((cfg0.win 1).blk t).view.emb (ix2 (n0 := 8) (n1 := 128) (j 0) (j 1)))))
     = FloatOps.mulf (FloatOps.uitofp (F := Ideal) .f32 (Cert.Spec.onDiag ((((cfg0.win 5).blk t).view.emb j) 1).val ((((cfg0.win 5).blk t).view.emb j) 2).val)) (Cert.Spec.upperDiag (V m c main_arg0 (ix2 (n0 := 64) (n1 := 1024) ((((cfg0.win 5).blk t).view.emb j) 0) ((((cfg0.win 5).blk t).view.emb j) 1))) (V m c main_arg1 (ix2 (n0 := 64) (n1 := 1024) ((((cfg0.win 5).blk t).view.emb j) 0) ((((cfg0.win 5).blk t).view.emb j) 1))))
  have r1 : ((((cfg0.win 5).blk t).view.emb j) 1).val = (grid0.coords t 1).val * 128 + (j 1).val := by
    show win0_5.index t (1 : Fin 3) * 128 + 1 * (j 1).val = _; omega
  have r2 : ((((cfg0.win 5).blk t).view.emb j) 2).val = (j 2).val := by
    show win0_5.index t (2 : Fin 3) * 1024 + 1 * (j 2).val = _; omega
  have h0 : ((cfg0.win 0).blk t).view.emb (ix2 (n0 := 8) (n1 := 128) (j 0) (j 1)) = ix2 (n0 := 64) (n1 := 1024) ((((cfg0.win 5).blk t).view.emb j) 0) ((((cfg0.win 5).blk t).view.emb j) 1) := by
    funext a; apply Fin.ext
    match a with
    | ⟨0, _⟩ => show win0_0.index t (0 : Fin 2) * 8 + 1 * (j 0).val = win0_5.index t (0 : Fin 3) * 8 + 1 * (j 0).val; omega
    | ⟨1, _⟩ => show win0_0.index t (1 : Fin 2) * 128 + 1 * (j 1).val = win0_5.index t (1 : Fin 3) * 128 + 1 * (j 1).val; omega
  have h1 : ((cfg0.win 1).blk t).view.emb (ix2 (n0 := 8) (n1 := 128) (j 0) (j 1)) = ix2 (n0 := 64) (n1 := 1024) ((((cfg0.win 5).blk t).view.emb j) 0) ((((cfg0.win 5).blk t).view.emb j) 1) := by
    funext a; apply Fin.ext
    match a with
    | ⟨0, _⟩ => show win0_1.index t (0 : Fin 2) * 8 + 1 * (j 0).val = win0_5.index t (0 : Fin 3) * 8 + 1 * (j 0).val; omega
    | ⟨1, _⟩ => show win0_1.index t (1 : Fin 2) * 128 + 1 * (j 1).val = win0_5.index t (1 : Fin 3) * 128 + 1 * (j 1).val; omega
  rw [r1, r2, h0, h1]

/-- An index of the array is in point `t`'s block iff each coordinate is in the block's range on its axis. -/
theorem mem_blk5 (t : Fin cfg0.N) (i : S64x1024x1024.Idx) :
    i ∈ ((cfg0.win 5).blk t).view.set ↔ ∀ a : Fin 3, win0_5.index t a * S8x128x1024.size a ≤ (i a).val ∧ (i a).val < win0_5.index t a * S8x128x1024.size a + S8x128x1024.size a := by
  show i ∈ ((View.whole main_v0_3).slice (win0_5.rect t)).set ↔ _
  rw [View.set_slice_whole, Rect.mem_set_unit]
  exact Iff.rfl

/-- The blocks tile the array: index `(x, y, z)` is in the block of point `(x / 8, y / 128)`. -/
theorem cover5 (i : S64x1024x1024.Idx) : ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  obtain ⟨t, ht0, ht1⟩ := coords_onto ⟨(i 0).val / 8, by omega⟩ ⟨(i 1).val / 128, by omega⟩
  obtain ⟨e0, e1, e2, e3, e4, e5, e6, e7, e8, e9, e10, e11, e12, e13, e14, e15, e16, e17⟩ := idx_facts t
  refine ⟨t, flush0_5 t, ?_⟩
  rw [mem_blk5]
  intro a
  have ht0' : (grid0.coords t 0).val = (i 0).val / 8 := ht0
  have ht1' : (grid0.coords t 1).val = (i 1).val / 128 := ht1
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 128 ≤ (i 1).val ∧ (i 1).val < win0_5.index t (1 : Fin 3) * 128 + 128; omega
  | ⟨2, _⟩ => show win0_5.index t (2 : Fin 3) * 1024 ≤ (i 2).val ∧ (i 2).val < win0_5.index t (2 : Fin 3) * 1024 + 1024; omega

/-- The array after the run. -/
theorem final5 (c : Dev nD) : (dats m 0 c).arrAt 5 cfg0.N = Cert.Spec.upperCoef (V m c main_arg0) (V m c main_arg1) :=
  (dats m 0 c).arrAt_eq_of_cover 5 (Cert.Spec.upperCoef (V m c main_arg0) (V m c main_arg1)) (fun t _ => flushed5_eq m c t) cover5

/-! ## The run -/

/-- The kernel's run with every result named by the specification, the arguments unchanged. -/
theorem run : θ_run defs (onTc (τ := τ) (main (F := Ideal))) ⟨m, fun _ => 0, ρ⟩ fun r => ∀ c : Dev nD,
      r.2.mem ((c : Thread nD τ).loc main_v0_0) = Cert.Spec.concreteLower (m ((c : Thread nD τ).loc main_arg0))
      ∧ r.2.mem ((c : Thread nD τ).loc main_v0_1) = Cert.Spec.concreteUpper (m ((c : Thread nD τ).loc main_arg1))
      ∧ r.2.mem ((c : Thread nD τ).loc main_v0_2) = Cert.Spec.lowerCoef (m ((c : Thread nD τ).loc main_arg0))
      ∧ r.2.mem ((c : Thread nD τ).loc main_v0_3) = Cert.Spec.upperCoef (m ((c : Thread nD τ).loc main_arg0)) (m ((c : Thread nD τ).loc main_arg1))
      ∧ r.2.mem ((c : Thread nD τ).loc main_v0_4) = Cert.Spec.lowerBias
      ∧ r.2.mem ((c : Thread nD τ).loc main_v0_5) = Cert.Spec.upperBias (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans (final2 m c),
       (h c).2.1.trans (final3 m c),
       (h c).2.2.1.trans (final4 m c),
       (h c).2.2.2.1.trans (final5 m c),
       (h c).2.2.2.2.1.trans (final6 m c),
       (h c).2.2.2.2.2.1.trans (final7 m c),
       (h c).2.2.2.2.2.2.1,
       (h c).2.2.2.2.2.2.2⟩)
    (run_blocks m ρ)

end Cert.KernelIdeal.Blocks

end
-- ==== Proof.RefValue.lean ====
/-
  The reference's six results, as its run composes them from the argument arrays, ARE the specification's
  functions (Spec.lean), index by index.

  The four [64, 1024] results are pointwise: at an entry the reference's operations are the specification's scalar
  functions of the arguments' entries, and a scalar broadcast reads the scalar. The two coefficient arrays
  [64, 1024, 1024] are a product of two broadcasts: the identity matrix [1024, 1024] broadcast over the batch axis
  reads its entry `(r, c)` at `(b, r, c)`, and the diagonal entries [64, 1024] broadcast along the last axis read
  their entry `(b, r)` at `(b, r, c)`; the identity's entry is the bit `r + 0 = c` read as a number.
-/
import proofs.«141274_j59949153518085_1_alg».proof.Proof.Gen.ReferenceIdeal.Run
import proofs.«141274_j59949153518085_1_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The identity matrix broadcast over the batch axis reads its entry `(r, c)` at `(b, r, c)`. -/
theorem eye_bcast_apply {α : Type} (x : S1024x1024.Idx → α) (b : Fin 64) (r c : Fin 1024) :
    broadcastInDim S64x1024x1024 ![0, 1, 2] bcast_S1x1024x1024_S64x1024x1024_0_1_2
        (broadcastInDim S1x1024x1024 ![1, 2] bcast_S1024x1024_S1x1024x1024_1_2 x) (ix3 b r c)
      = x (ix2 r c) :=
  (broadcastInDim_apply _ _ _ (ix3 b r c) (ix3 (0 : Fin 1) r c)
      (fun a => match a with | ⟨0, _⟩ => rfl | ⟨1, _⟩ => rfl | ⟨2, _⟩ => rfl)).trans
    (broadcastInDim_apply _ _ _ (ix3 (0 : Fin 1) r c) (ix2 r c)
      (fun a => match a with | ⟨0, _⟩ => rfl | ⟨1, _⟩ => rfl))

/-- The diagonal entries broadcast along the last axis read their entry `(b, r)` at `(b, r, c)`. -/
theorem diag_bcast_apply {α : Type} (x : S64x1024.Idx → α) (b : Fin 64) (r c : Fin 1024) :
    broadcastInDim S64x1024x1024 ![0, 1, 2] bcast_S64x1024x1_S64x1024x1024_0_1_2
        (broadcastInDim S64x1024x1 ![0, 1] bcast_S64x1024_S64x1024x1_0_1 x) (ix3 b r c)
      = x (ix2 b r) :=
  (broadcastInDim_apply _ _ _ (ix3 b r c) (ix3 b r (0 : Fin 1))
      (fun a => match a with | ⟨0, _⟩ => rfl | ⟨1, _⟩ => rfl | ⟨2, _⟩ => rfl)).trans
    (broadcastInDim_apply _ _ _ (ix3 b r (0 : Fin 1)) (ix2 b r)
      (fun a => match a with | ⟨0, _⟩ => rfl | ⟨1, _⟩ => rfl))

/-- `max l 0`. -/
theorem concreteLower_eq (a0 : FVec Ideal S64x1024 .f32) :
    maximumf (a0) (broadcastInDim S64x1024 ![] bcast_S_S64x1024 (constant S_ .f32 0x00000000#32)) = Cert.Spec.concreteLower a0 := by
  funext i; rfl

/-- `max u 0`. -/
theorem concreteUpper_eq (a1 : FVec Ideal S64x1024 .f32) :
    maximumf (a1) (broadcastInDim S64x1024 ![] bcast_S_S64x1024 (constant S_ .f32 0x00000000#32)) = Cert.Spec.concreteUpper a1 := by
  funext i; rfl

/-- The zero array. -/
theorem lowerBias_eq :
    (broadcastInDim S64x1024 ![] bcast_S_S64x1024 (constant S_ .f32 0x00000000#32) : FVec Ideal S64x1024 .f32) = Cert.Spec.lowerBias := by
  funext i; rfl

/-- The offset of the upper relaxation. -/
theorem upperBias_eq (a0 a1 : FVec Ideal S64x1024 .f32) :
    select (andi (cmpf .olt (a0) (broadcastInDim S64x1024 ![] bcast_S_S64x1024 (constant S_ .f32 0x00000000#32))) (cmpf .ogt (a1) (broadcastInDim S64x1024 ![] bcast_S_S64x1024 (constant S_ .f32 0x00000000#32)))) (mulf (Host.negf (select (andi (cmpf .olt (a0) (broadcastInDim S64x1024 ![] bcast_S_S64x1024 (constant S_ .f32 0x00000000#32))) (cmpf .ogt (a1) (broadcastInDim S64x1024 ![] bcast_S_S64x1024 (constant S_ .f32 0x00000000#32)))) (Host.divf (a1) (addf (subf (a1) (a0)) (broadcastInDim S64x1024 ![] bcast_S_S64x1024 (constant S_ .f32 0x322BCC77#32)))) (broadcastInDim S64x1024 ![] bcast_S_S64x1024 (id (constant S_ .f32 0x00000000#32))))) (a0)) (broadcastInDim S64x1024 ![] bcast_S_S64x1024 (id (constant S_ .f32 0x00000000#32))) = Cert.Spec.upperBias a0 a1 := by
  funext i; rfl

/-- The lower coefficient array: the identity's entry times the lower diagonal entry. -/
theorem lowerCoef_eq (a0 : FVec Ideal S64x1024 .f32) :
    mulf (broadcastInDim S64x1024x1024 ![0, 1, 2] bcast_S1x1024x1024_S64x1024x1024_0_1_2 (broadcastInDim S1x1024x1024 ![1, 2] bcast_S1024x1024_S1x1024x1024_1_2 (uitofp .f32 (cmpi .eq (addi (iotaInDim S1024x1024 32 0) (broadcastInDim S1024x1024 ![] bcast_S_S1024x1024 (constantI S_ 32 0#32))) (iotaInDim S1024x1024 32 1))))) (broadcastInDim S64x1024x1024 ![0, 1, 2] bcast_S64x1024x1_S64x1024x1024_0_1_2 (broadcastInDim S64x1024x1 ![0, 1] bcast_S64x1024_S64x1024x1_0_1 (uitofp .f32 (cmpf .oge (a0) (broadcastInDim S64x1024 ![] bcast_S_S64x1024 (constant S_ .f32 0x00000000#32)))))) = Cert.Spec.lowerCoef a0 := by
  funext i
  obtain ⟨b, r, c, rfl⟩ : ∃ (b : Fin 64) (r : Fin 1024) (c : Fin 1024), i = ix3 b r c := ⟨i 0, i 1, i 2, eq_ix3 i⟩
  refine (congrArg₂ (FloatOps.mulf (F := Ideal) (φ := .f32)) (eye_bcast_apply _ b r c) (diag_bcast_apply _ b r c)).trans ?_
  rfl

/-- The upper coefficient array: the identity's entry times the upper diagonal entry. -/
theorem upperCoef_eq (a0 a1 : FVec Ideal S64x1024 .f32) :
    mulf (broadcastInDim S64x1024x1024 ![0, 1, 2] bcast_S1x1024x1024_S64x1024x1024_0_1_2 (broadcastInDim S1x1024x1024 ![1, 2] bcast_S1024x1024_S1x1024x1024_1_2 (uitofp .f32 (cmpi .eq (addi (iotaInDim S1024x1024 32 0) (broadcastInDim S1024x1024 ![] bcast_S_S1024x1024 (constantI S_ 32 0#32))) (iotaInDim S1024x1024 32 1))))) (broadcastInDim S64x1024x1024 ![0, 1, 2] bcast_S64x1024x1_S64x1024x1024_0_1_2 (broadcastInDim S64x1024x1 ![0, 1] bcast_S64x1024_S64x1024x1_0_1 (select (cmpf .oge (a0) (broadcastInDim S64x1024 ![] bcast_S_S64x1024 (constant S_ .f32 0x00000000#32))) (broadcastInDim S64x1024 ![] bcast_S_S64x1024 (constant S_ .f32 0x3F800000#32)) (select (andi (cmpf .olt (a0) (broadcastInDim S64x1024 ![] bcast_S_S64x1024 (constant S_ .f32 0x00000000#32))) (cmpf .ogt (a1) (broadcastInDim S64x1024 ![] bcast_S_S64x1024 (constant S_ .f32 0x00000000#32)))) (Host.divf (a1) (addf (subf (a1) (a0)) (broadcastInDim S64x1024 ![] bcast_S_S64x1024 (constant S_ .f32 0x322BCC77#32)))) (broadcastInDim S64x1024 ![] bcast_S_S64x1024 (id (constant S_ .f32 0x00000000#32))))))) = Cert.Spec.upperCoef a0 a1 := by
  funext i
  obtain ⟨b, r, c, rfl⟩ : ∃ (b : Fin 64) (r : Fin 1024) (c : Fin 1024), i = ix3 b r c := ⟨i 0, i 1, i 2, eq_ix3 i⟩
  refine (congrArg₂ (FloatOps.mulf (F := Ideal) (φ := .f32)) (eye_bcast_apply _ b r c) (diag_bcast_apply _ b r c)).trans ?_
  rfl

/-- The reference's run with every result named by the specification. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.Spec.concreteLower (m ((c.tc : Thread nD τ).loc main_arg0))
      ∧ r.2.mem ((c.tc : Thread nD τ).loc main_v3) = Cert.Spec.concreteUpper (m ((c.tc : Thread nD τ).loc main_arg1))
      ∧ r.2.mem ((c.tc : Thread nD τ).loc main_v32) = Cert.Spec.lowerCoef (m ((c.tc : Thread nD τ).loc main_arg0))
      ∧ r.2.mem ((c.tc : Thread nD τ).loc main_v37) = Cert.Spec.upperCoef (m ((c.tc : Thread nD τ).loc main_arg0)) (m ((c.tc : Thread nD τ).loc main_arg1))
      ∧ r.2.mem ((c.tc : Thread nD τ).loc main_v38) = Cert.Spec.lowerBias
      ∧ r.2.mem ((c.tc : Thread nD τ).loc main_v18) = Cert.Spec.upperBias (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(h c).1.trans (concreteLower_eq _),
       (h c).2.1.trans (concreteUpper_eq _),
       (h c).2.2.1.trans (lowerCoef_eq _),
       (h c).2.2.2.1.trans (upperCoef_eq _ _),
       (h c).2.2.2.2.1.trans lowerBias_eq,
       (h c).2.2.2.2.2.1.trans (upperBias_eq _ _),
       (h c).2.2.2.2.2.2.1,
       (h c).2.2.2.2.2.2.2⟩)
    (Cert.ReferenceIdeal.Value.run (F := Ideal) m ρ)

end Cert.ReferenceIdeal.RefValue

end
-- ==== Proof.lean ====
/-
  The kernel builds, from two [64, 1024] arrays `l ≤ u` of pre-activation bounds, the six arrays of a ReLU bound
  relaxation: `max l 0`, `max u 0`, a zero bias, the upper relaxation's offset, and two [64, 1024, 1024] coefficient
  arrays that carry a per-neuron entry on the diagonal of their last two axes and zero elsewhere. It runs on an 8 × 8
  grid, each point handling 8 batch rows and 128 neurons, and writes the 128 × 1024 slab of each coefficient array that
  holds those neurons' rows, placing the entry where the column equals the neuron's index in the whole array.
  The reference computes the same arrays whole, the coefficient arrays as the identity matrix times the per-neuron
  entry broadcast along the last axis.

  Over the extended reals the two agree entry by entry, for every input (no finiteness is used):
    * where the kernel selects "entry where column = row, else 0" the reference multiplies by the identity's entry,
      and `1 · d = d`, `0 · d = 0` for every extended real `d`;
    * the kernel's `0 − x` is the reference's `−x`;
    * the kernel's "bit widened to a word, read signed" is the reference's "bit read unsigned".
  Spec.lean states the six arrays; KernelBlocks.lean shows the kernel's run ends with them (from what each grid point
  writes back, block by block); RefValue.lean shows the reference's run ends with them. The frames: each program
  terminates without fault and leaves its arguments unchanged. The idealization rewrote nothing, so `preserves` is
  `True`.
-/
import proofs.«141274_j59949153518085_1_alg».proof.Defs
import proofs.«141274_j59949153518085_1_alg».proof.Proof.Gen.Kernel
import proofs.«141274_j59949153518085_1_alg».proof.Proof.KernelFrame
import proofs.«141274_j59949153518085_1_alg».proof.Proof.Gen.KernelIdeal
import proofs.«141274_j59949153518085_1_alg».proof.Proof.KernelIdealFrame
import proofs.«141274_j59949153518085_1_alg».proof.Proof.KernelBlocks
import proofs.«141274_j59949153518085_1_alg».proof.Proof.Gen.ReferenceIdeal
import proofs.«141274_j59949153518085_1_alg».proof.Proof.RefValue
import proofs.«141274_j59949153518085_1_alg».proof.Proof.Gen.Pre_finite_inputs
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- And the reference: its run, with the results dropped. -/
theorem frame_referenceIdeal : Cert.frame_ReferenceIdeal := fun m ρ _ =>
  (θ_run Cert.ReferenceIdeal.defs _ _).mono (fun _ h c => (h c).2.2.2.2.2.2)
    (Cert.ReferenceIdeal.Value.run (F := Ideal) m ρ)

/-- The idealization rewrote no operation. -/
theorem preserves : Cert.preserves_Kernel_KernelIdeal := trivial

/-- From memories that agree on the arguments both programs end with the specification's six arrays of those
    arguments. -/
theorem algebraic : Cert.algebraic_KernelIdeal_ReferenceIdeal := by
  intro m ρ m' ρ' _ hagree
  refine ⟨_, _, _, _, _, _, Cert.KernelIdeal.Blocks.run m ρ, ?_⟩
  refine (θ_run Cert.ReferenceIdeal.defs _ _).mono (fun r h c => ?_) (Cert.ReferenceIdeal.RefValue.run m' ρ')
  obtain ⟨h1, h2, h3, h4, h5, h6, h7, h8⟩ := h c
  rw [(hagree c).1] at h1 h3 h4 h6
  rw [(hagree c).2] at h2 h4 h6
  exact ⟨h1, h2, h3, h4, h5, h6, h7, h8⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
